-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .hbm, ⟨7, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x2048_S8192x2048 : S4x2048x2048.ShapeCasts S8192x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S1x1x2048, .f32⟩
  | .hbm, ⟨55, _⟩ => ⟨S4x2048x2048, .f32⟩
  | .hbm, ⟨56, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Consts.lean ====
/-
  The one float constant whose value the proof uses: the quantizers' floor on the scale, the f32 pattern
  0x322BCC77 (printed 9.99999993E-9). All the proof needs of it is its sign: it is a positive real,
  (2^23 + 0x2BCC77) · 2^(100 - 127 - 23). Every other constant (7, 127, -8, -128, the -∞ a row maximum starts
  from) is the same pattern on both sides and is never evaluated.
-/
import Idealize.ShloMosaic.PureOps.Ideal

noncomputable section

namespace Cert.QuantLinear.Consts

open Idealize.ShloMosaic

/-- The scale floor is above zero. -/
theorem scaleFloor_pos : (0 : EReal) < Ideal.ofBits .f32 0x322BCC77#32 := by
  have h : Ideal.ofBits .f32 0x322BCC77#32 = (((2 ^ 23 + 2870391 : ℕ) : ℝ) * (2 : ℝ) ^ (-50 : ℤ) : ℝ) := by
    simp [Ideal.ofBits, Ideal.ieee, -EReal.coe_mul]
  rw [h]
  exact_mod_cast (by positivity : (0 : ℝ) < ((2 ^ 23 + 2870391 : ℕ) : ℝ) * (2 : ℝ) ^ (-50 : ℤ))

end Cert.QuantLinear.Consts

end
-- ==== Proof.Quant.lean ====
/-
  The mathematics of the quantized linear layer, on the extended reals, with no program in sight.

  A row r (2048 entries) is quantized symmetrically: its scale is
      scale qm r = max ( (max_k |r k|) / qm , floor ),
  the entry r k becomes   clamp lo hi (round_half_even (r k / scale)) · scale.
  The reference spells the rounding "straight through": v + (round v - v) in place of round v. On a REAL
  v the two agree (the reals cancel), and v = r k / scale is real as soon as r k is real, because the scale is at
  least the floor, which is positive: so the scale is neither zero nor -∞, and a real divided by a positive
  extended real (+∞ included) is a real. That is the only place finiteness of the inputs is used.

  The layer: out[b, s, o] = Σ_k quant(x[b, s, ·]) k · quant(w[o, ·]) k + bias[o],
  with 8-bit bounds for the activations and 4-bit bounds for the weights.
-/
import Idealize.ShloMosaic.PureOps.Ideal
import Idealize.ShloMosaic.Lib.ValueIdx
import proofs.«115590_j19370302505132_1_alg».proof.Proof.Consts

noncomputable section

namespace Cert.QuantLinear

open Idealize.ShloMosaic Idealize.ShloMosaic.ValueIdx

/-! ## The constants, as the patterns both programs print -/

/-- -∞: what a row maximum starts from. -/
abbrev negInf : EReal := Ideal.ofBits .f32 0xFF800000#32
/-- The floor on a scale (9.99999993E-9). -/
abbrev scaleFloor : EReal := Ideal.ofBits .f32 0x322BCC77#32
/-- Weights, 4 bits: qmax = 7, bounds -8 and 7. -/
abbrev wQmax : EReal := Ideal.ofBits .f32 0x40E00000#32
abbrev wLo : EReal := Ideal.ofBits .f32 0xC1000000#32
abbrev wHi : EReal := Ideal.ofBits .f32 0x40E00000#32
/-- Activations, 8 bits: qmax = 127, bounds -128 and 127. -/
abbrev aQmax : EReal := Ideal.ofBits .f32 0x42FE0000#32
abbrev aLo : EReal := Ideal.ofBits .f32 0xC3000000#32
abbrev aHi : EReal := Ideal.ofBits .f32 0x42FE0000#32

/-! ## One row -/

/-- The largest absolute value of a row, as a fold of max from -∞ (|a| is max a (-a)). -/
def rowAbsMax (r : Fin 2048 → EReal) : EReal :=
  (Finset.univ : Finset (Fin 2048)).fold max negInf (fun k => max (r k) (-(r k)))

/-- The row's scale: its absolute maximum over qmax, floored. -/
def scale (qm : EReal) (r : Fin 2048 → EReal) : EReal :=
  max (Ideal.div (rowAbsMax r) qm) scaleFloor

/-- Round to nearest, ties to even; the infinities fixed. -/
abbrev rnd (v : EReal) : EReal := Ideal.liftRound Ideal.roundHalfEven v

/-- Entry k of the quantized row, rounding directly (the kernel's spelling). -/
def quant (lo hi qm : EReal) (r : Fin 2048 → EReal) (k : Fin 2048) : EReal :=
  min hi (max lo (rnd (Ideal.div (r k) (scale qm r)))) * scale qm r

/-- Entry k of the quantized row, rounding straight through (the reference's spelling). -/
def quantSte (lo hi qm : EReal) (r : Fin 2048 → EReal) (k : Fin 2048) : EReal :=
  min hi (max lo (Ideal.div (r k) (scale qm r) + (rnd (Ideal.div (r k) (scale qm r)) - Ideal.div (r k) (scale qm r))))
    * scale qm r

/-- The scale is positive: it is at least the floor. -/
theorem scale_pos (qm : EReal) (r : Fin 2048 → EReal) : 0 < scale qm r :=
  lt_of_lt_of_le Consts.scaleFloor_pos (le_max_right _ _)

/-- A real over a positive extended real is a real (over +∞ it is 0). -/
theorem div_real_of_pos (x : ℝ) {s : EReal} (hs : 0 < s) : ∃ y : ℝ, Ideal.div (x : EReal) s = (y : EReal) := by
  unfold Ideal.div
  rw [if_neg hs.ne']
  induction s using EReal.rec with
  | bot => exact absurd hs (not_lt.mpr bot_le)
  | top => exact ⟨0, by rw [EReal.inv_top, mul_zero, EReal.coe_zero]⟩
  | coe a => exact ⟨x * a⁻¹, by rw [← EReal.coe_inv, ← EReal.coe_mul]⟩

/-- On a real, rounding straight through is rounding. -/
theorem ste_cancel (v : ℝ) : (v : EReal) + (rnd (v : EReal) - (v : EReal)) = rnd (v : EReal) := by
  show (v : EReal) + (((Ideal.roundHalfEven v : ℤ) : ℝ) - (v : EReal)) = (((Ideal.roundHalfEven v : ℤ) : ℝ) : EReal)
  rw [← EReal.coe_sub, ← EReal.coe_add]
  congr 1
  ring

/-- So the two spellings of a quantized entry agree when the entry is real. -/
theorem quantSte_eq_quant (lo hi qm : EReal) (r : Fin 2048 → EReal) (k : Fin 2048) (hr : ∃ x : ℝ, r k = (x : EReal)) :
    quantSte lo hi qm r k = quant lo hi qm r k := by
  obtain ⟨x, hx⟩ := hr
  obtain ⟨y, hy⟩ := div_real_of_pos x (scale_pos qm r)
  unfold quantSte quant
  rw [hx, hy, ste_cancel]

/-! ## The arrays -/

abbrev SX : Shape := ⟨3, ![4, 2048, 2048]⟩
abbrev SW : Shape := ⟨2, ![2048, 2048]⟩
abbrev SB : Shape := ⟨1, ![2048]⟩
/-- The activations with batch and sequence flattened to 8192 tokens, and the bias as one row. -/
abbrev SM : Shape := ⟨2, ![8192, 2048]⟩
abbrev SB2 : Shape := ⟨2, ![1, 2048]⟩

/-- Row (b, s) of the activations, row o of the weights, row t of the flattened activations. -/
def xRow (x : SX.Idx → EReal) (b : Fin 4) (s : Fin 2048) : Fin 2048 → EReal := fun k => x (ix3 b s k)
def wRow (w : SW.Idx → EReal) (o : Fin 2048) : Fin 2048 → EReal := fun k => w (ix2 o k)
def mRow (x2 : SM.Idx → EReal) (t : Fin 8192) : Fin 2048 → EReal := fun k => x2 (ix2 t k)

/-- The quantized weights, row by row. -/
def wQuant (w : SW.Idx → EReal) : SW.Idx → EReal := fun i => quant wLo wHi wQmax (wRow w (i 0)) (i 1)

/-- The second kernel's result on flattened activations x2, ALREADY quantized weights wq and the bias row b2. -/
def rowsLinear (x2 : SM.Idx → EReal) (wq : SW.Idx → EReal) (b2 : SB2.Idx → EReal) : SM.Idx → EReal := fun i =>
  (∑ k : Fin 2048, quant aLo aHi aQmax (mRow x2 (i 0)) k * wq (ix2 (i 1) k)) + b2 (ix2 0 (i 1))

/-- The layer, rounding directly. -/
def linear (x : SX.Idx → EReal) (w : SW.Idx → EReal) (b : SB.Idx → EReal) : SX.Idx → EReal := fun i =>
  (∑ k : Fin 2048, quant aLo aHi aQmax (xRow x (i 0) (i 1)) k * quant wLo wHi wQmax (wRow w (i 2)) k) + b (ix1 (i 2))

/-- The layer, rounding straight through. -/
def linearSte (x : SX.Idx → EReal) (w : SW.Idx → EReal) (b : SB.Idx → EReal) : SX.Idx → EReal := fun i =>
  (∑ k : Fin 2048, quantSte aLo aHi aQmax (xRow x (i 0) (i 1)) k * quantSte wLo wHi wQmax (wRow w (i 2)) k) + b (ix1 (i 2))

/-- On real activations and weights the two layers are one function. -/
theorem linearSte_eq_linear (x : SX.Idx → EReal) (w : SW.Idx → EReal) (b : SB.Idx → EReal)
    (hx : ∀ i, ∃ r : ℝ, x i = (r : EReal)) (hw : ∀ i, ∃ r : ℝ, w i = (r : EReal)) :
    linearSte x w b = linear x w b := by
  funext i
  unfold linearSte linear
  congr 1
  refine Finset.sum_congr rfl fun k _ => ?_
  rw [quantSte_eq_quant _ _ _ _ _ (hx _), quantSte_eq_quant _ _ _ _ _ (hw _)]

end Cert.QuantLinear

end
-- ==== Proof.WeightBody.lean ====
/-
  The weight kernel's arithmetic at one entry. On a loaded block of 512 weight rows the body takes each row's
  absolute maximum, forms the row's scale, and writes round(w / scale) clamped to [-8, 7], times the scale
  (the change of format to bf16 is the identity on the extended reals): entry (p, q) of the result is entry q of
  the quantized row p.
-/
import proofs.«115590_j19370302505132_1_alg».proof.Proof.Gen.KernelIdeal.Skeleton
import proofs.«115590_j19370302505132_1_alg».proof.Proof.Quant
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.WeightBody

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)

/-- The row maximum of the absolute values at row p: the fold of max from -∞ over that row. -/
theorem rowmax_at (x : FVec Ideal S512x2048 .f32) (h : S512x2048.Reduces [1] S512) (hφ : FKind.Formats .f32)
    (hacc : (0xFF800000#32 : BitVec 32) = FKind.maximumf.neutral .f32 hφ) (p : Fin 512) :
    multiReduction (F := Ideal) .maximumf [1] S512 (absf x) 0xFF800000#32 h hφ hacc (ix1 p)
      = rowAbsMax (fun k => x (ix2 p k)) := by
  refine (Ideal.multiReduction_maximumf_single (absf x) _ h hφ hacc (ix1 p)).trans ?_
  show (Finset.univ : Finset (Fin 2048)).fold max negInf (fun k => absf x (h.lift (ix1 p) k)) = _
  unfold rowAbsMax
  refine congrArg (fun f => (Finset.univ : Finset (Fin 2048)).fold max negInf f) (funext fun k => ?_)
  have e : h.lift (ix1 p) k = ix2 p k :=
    funext fun a => Fin.ext (by match a with | ⟨0, _⟩ => rfl | ⟨1, _⟩ => rfl)
  show max (x (h.lift (ix1 p) k)) (-(x (h.lift (ix1 p) k))) = _
  rw [e]
  rfl

/-- A column [512] viewed as [512, 1] reads its row's entry. -/
theorem cast_col_at (v : FVec Ideal S512 .f32) (h : S512.ShapeCasts S512x1) (p : Fin 512) (z : Fin 1) :
    shapeCast S512x1 v h (ix2 p z) = v (ix1 p) := by
  refine shapeCast_apply v h (ix2 p z) (ix1 p) ?_
  rw [Shape.rowMajor_val_one, Shape.rowMajor_val_two]
  show p.val = p.val * 1 + z.val
  omega

/-- A column [512, 1] spread over 2048 lanes reads its row's entry at every lane. -/
theorem spread_col_at (v : FVec Ideal S512x1 .f32) (h : S512x1.Broadcasts S512x2048) (p : Fin 512) (q : Fin 2048) :
    broadcastTo S512x2048 v h (ix2 p q) = v (ix2 p 0) := by
  refine broadcastTo_apply v h (ix2 p q) (ix2 p 0) fun a => ?_
  match a with
  | ⟨0, _⟩ => rfl
  | ⟨1, _⟩ => rfl

/-- The block of scales at (p, q), for any qmax word: the scale of row p. -/
theorem scale_at (qm : BitVec 32) (x : FVec Ideal S512x2048 .f32) (hr : S512x2048.Reduces [1] S512)
    (hφ : FKind.Formats .f32) (hacc : (0xFF800000#32 : BitVec 32) = FKind.maximumf.neutral .f32 hφ)
    (hc : S512.ShapeCasts S512x1) (hb : S512x1.Broadcasts S512x2048) (p : Fin 512) (q : Fin 2048) :
    broadcastTo S512x2048
        (maximumf
          (divf (shapeCast S512x1 (multiReduction (F := Ideal) .maximumf [1] S512 (absf x) 0xFF800000#32 hr hφ hacc) hc)
            (broadcast S512x1 (Scalar.ofBits (F := Ideal) .f32 qm)))
          (broadcast S512x1 (Scalar.ofBits (F := Ideal) .f32 0x322BCC77#32)))
        hb (ix2 p q)
      = scale (Ideal.ofBits .f32 qm) (fun k => x (ix2 p k)) := by
  refine (spread_col_at _ hb p q).trans ?_
  show max (Ideal.div (shapeCast S512x1 (multiReduction (F := Ideal) .maximumf [1] S512 (absf x) 0xFF800000#32 hr hφ hacc) hc (ix2 p 0))
      (Ideal.ofBits .f32 qm)) scaleFloor = _
  rw [cast_col_at _ hc p 0, rowmax_at x hr hφ hacc p]
  rfl

/-- The weight kernel's payload at (p, q): entry q of the quantized row p of the loaded block. -/
theorem wquant_pay (x0 : Vec Ideal S512x2048 .f32) (p : Fin 512) (q : Fin 2048) :
    k0_pay1 (F := Ideal) x0 (ix2 p q) = quant wLo wHi wQmax (fun k => x0 (ix2 p k)) q := by
  have hs := scale_at 0x40E00000#32 x0 reduces_S512x2048_S512 (.inl rfl) rfl shapeCasts_S512_S512x1
    broadcasts_S512x1_S512x2048 p q
  unfold k0_pay1 quant
  exact congrArg (fun s => min wHi (max wLo (rnd (Ideal.div (x0 (ix2 p q)) s))) * s) hs

end Cert.KernelIdeal.WeightBody

end
-- ==== Proof.WeightRegion.lean ====
/-
  What the first pallas_call leaves in its output array. Its four grid points each take 512 whole rows of the weight
  matrix and write back the quantized rows; a row's quantization reads that row only, so point t's block is block t of
  ONE function of the whole matrix (wQuant), and the four blocks tile the 2048 rows.
-/
import proofs.«115590_j19370302505132_1_alg».proof.Proof.Gen.KernelIdeal.Frame
import proofs.«115590_j19370302505132_1_alg».proof.Proof.WeightBody

set_option maxRecDepth 16384

noncomputable section

namespace Cert.KernelIdeal.WeightRegion

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access. -/
theorem zero_offset : (![0, 0] : Fin 2 → Nat) = fun _ => 0 := funext fun a => by fin_cases a <;> rfl

/-- The block index maps over the four points: both windows sit at row block t, column block 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A loaded block whose row p is row (i 0) of the matrix w: the body's entry (p, q) is entry i of the quantized
    matrix, when q is i's column. -/
theorem block_entry (w : SW.Idx → EReal) (x0 : Vec Ideal S512x2048 .f32) (i : SW.Idx) (p : Fin 512) (q : Fin 2048)
    (hrow : ∀ k : Fin 2048, x0 (ix2 p k) = w (ix2 (i 0) k)) (hq : i 1 = q) :
    k0_pay1 (F := Ideal) x0 (ix2 p q) = wQuant w i := by
  refine (WeightBody.wquant_pay x0 p q).trans ?_
  unfold wQuant wRow
  rw [hq]
  congr 1
  funext k
  exact hrow k

/-- What point t writes back is block t of the quantized weights. -/
theorem flushed_eq (c : Dev nD) (t : Fin cfg0.N) :
    (dat0 V c).flushed 1 t = ((cfg0.win 1).blk t).view.read (Elt Ideal) (wQuant (V c main_arg1)) := by
  show (cfg0.win 1).cut (grid0.coords t) ((dat0 V c).after 1 t) = _
  rw [after0_1]
  unfold out0_1
  rw [View.canon_unit_zero zero_offset]
  simp only [View.ld_unit_zero (S := S512x2048) zero_offset]
  obtain ⟨e00, e01, e10, e11⟩ := index_facts t
  funext j
  obtain ⟨p, q, rfl⟩ : ∃ (p : Fin 512) (q : Fin 2048), (j : S512x2048.Idx) = ix2 p q := ⟨j 0, j 1, eq_ix2 (n0 := 512) (n1 := 2048) j⟩
  show k0_pay1 (F := Ideal) (iblk0 V c 0 t) (ix2 p q) = wQuant (V c main_arg1) (((cfg0.win 1).blk t).view.emb (ix2 p q))
  refine block_entry (V c main_arg1) (iblk0 V c 0 t) (((cfg0.win 1).blk t).view.emb (ix2 p q)) p q (fun k => ?_) ?_
  · show V c main_arg1 (((cfg0.win 0).blk t).view.emb (ix2 p k)) = V c main_arg1 (ix2 (((cfg0.win 1).blk t).view.emb (ix2 p q) 0) k)
    congr 1
    funext a
    apply Fin.ext
    match a with
    | ⟨0, _⟩ => show win0_0.index t (0 : Fin 2) * 512 + 1 * p.val = win0_1.index t (0 : Fin 2) * 512 + 1 * p.val; omega
    | ⟨1, _⟩ => show win0_0.index t (1 : Fin 2) * 2048 + 1 * k.val = k.val; omega
  · apply Fin.ext
    show win0_1.index t (1 : Fin 2) * 2048 + 1 * q.val = q.val
    omega

/-- An index of the output array is in point t's block iff each coordinate is in the block's range on its axis. -/
theorem mem_blk (t : Fin cfg0.N) (i : S2048x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v2).slice (win0_1.rect t)).set ↔ _
  rw [View.set_slice_whole, Rect.mem_set_unit]
  exact Iff.rfl

/-- The four blocks tile the 2048 rows: row r is in the block of point r / 512. -/
theorem cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have hN : grid0.N = 4 := N_0
  obtain ⟨t, ht⟩ : ∃ t : Fin cfg0.N, t.val = (i 0).val / 512 :=
    ⟨⟨(i 0).val / 512, by show (i 0).val / 512 < grid0.N; rw [hN]; omega⟩, rfl⟩
  obtain ⟨e00, e01, e10, e11⟩ := index_facts t
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After the first region its output array holds the quantized weights of the array it was entered with. -/
theorem wquant_final (c : Dev nD) : (dat0 V c).arrAt 1 cfg0.N = wQuant (V c main_arg1) :=
  (dat0 V c).arrAt_eq_of_cover 1 (wQuant (V c main_arg1)) (fun t _ => flushed_eq V c t) cover

end Cert.KernelIdeal.WeightRegion

end
-- ==== Proof.ActBody.lean ====
/-
  The linear kernel's arithmetic at one entry. On a loaded block of 512 activation rows, the whole quantized weight
  matrix and the bias row, the body quantizes each activation row to 8 bits (as the weight kernel does to 4),
  contracts it with each weight row and adds the bias: entry (p, o) is Σ_k quant(row p) k · wq[o, k] + bias[o].
-/
import proofs.«115590_j19370302505132_1_alg».proof.Proof.Gen.KernelIdeal.Skeleton
import proofs.«115590_j19370302505132_1_alg».proof.Proof.Quant
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.ActBody

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)

/-- The row maximum of the absolute values of a block of 512 rows, read at row p: the row's absolute maximum. -/
private theorem rowmax_apply (x : FVec Ideal S512x2048 .f32) (h : S512x2048.Reduces [1] S512)
    (hφ : FKind.Formats .f32) (hacc : (0xFF800000#32 : BitVec 32) = FKind.maximumf.neutral .f32 hφ) (p : Fin 512) :
    multiReduction (F := Ideal) .maximumf [1] S512 (absf x) 0xFF800000#32 h hφ hacc (ix1 p)
      = rowAbsMax (fun k => x (ix2 p k)) := by
  refine (Ideal.multiReduction_maximumf_single (absf x) 0xFF800000#32 h hφ hacc (ix1 p)).trans ?_
  show (Finset.univ : Finset (Fin 2048)).fold max negInf (absf x ∘ h.lift (ix1 p))
    = (Finset.univ : Finset (Fin 2048)).fold max negInf (fun k => max (x (ix2 p k)) (-(x (ix2 p k))))
  refine congrArg (fun f => (Finset.univ : Finset (Fin 2048)).fold max negInf f) (funext fun k => ?_)
  show absf x (h.lift (ix1 p) k) = absf x (ix2 p k)
  exact congrArg (absf x) (funext fun a => Fin.ext (by match a with | ⟨0, _⟩ => rfl | ⟨1, _⟩ => rfl))

/-- A column of 512 entries viewed as a 512 × 1 array reads, at (p, u), entry p. -/
private theorem shapeCast_col_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 512 × 1 array broadcast along its unit axis reads, at (p, k), the operand at (p, 0). -/
private theorem broadcastTo_col_apply {α : Type} (v : S512x1.Idx → α) (h : S512x1.Broadcasts S512x2048) (p : Fin 512) (k : Fin 2048) :
    broadcastTo S512x2048 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The contraction's operand indices: the left operand's row is the result's row … -/
private theorem lhs_dot_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- … its column the contraction coordinate; -/
private theorem lhs_dot_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- the right operand's row is the result's column … -/
private theorem rhs_dot_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- … and its column the contraction coordinate. -/
private theorem rhs_dot_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product of a block with the transposed weights at (p, o): the sum over k of left (p, k) times right (o, k). -/
private theorem matmul_rows_apply (l : FVec Ideal S512x2048 .bf16) (r : FVec Ideal S2048x2048 .bf16) (p : Fin 512) (o : Fin 2048) :
    matmul dot_S512x2048_S2048x2048_S512x2048_1_1_0_0_n_n none l r (constant (F := Ideal) S512x2048 .f32 0x00000000#32) (ix2 p o)
      = ∑ k : Fin 2048, l (ix2 p k) * r (ix2 o k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p o) ((ValueIdx.contrEquiv1 dot_S512x2048_S2048x2048_S512x2048_1_1_0_0_n_n 2048 rfl rfl).symm k) = ix2 p k := funext fun a => Fin.ext (by
    match a with
    | ⟨0, _⟩ => exact lhs_dot_0 _ _
    | ⟨1, _⟩ => exact (lhs_dot_1 _ _).trans hk)
  have er : dot_S512x2048_S2048x2048_S512x2048_1_1_0_0_n_n.rhsIdx (ix2 p o) ((ValueIdx.contrEquiv1 dot_S512x2048_S2048x2048_S512x2048_1_1_0_0_n_n 2048 rfl rfl).symm k) = ix2 o k := funext fun a => Fin.ext (by
    match a with
    | ⟨0, _⟩ => exact rhs_dot_0 _ _
    | ⟨1, _⟩ => exact (rhs_dot_1 _ _).trans hk)
  rw [el, er]

/-- Rounding a block, read at an index. -/
private theorem roundeven_apply {s : Shape} {φ : FTy} (a : FVec Ideal s φ) (i : s.Idx) :
    roundeven a i = Ideal.liftRound Ideal.roundHalfEven (a i) := rfl

/-- The linear kernel's payload at (p, o). -/
theorem qlinear_pay (x0 : Vec Ideal S512x2048 .f32) (x1 : Vec Ideal S2048x2048 .bf16) (x2 : Vec Ideal S1x2048 .f32)
    (p : Fin 512) (o : Fin 2048) :
    k1_pay1 (F := Ideal) x0 x1 x2 (ix2 p o)
      = (∑ k : Fin 2048, quant aLo aHi aQmax (fun k' => x0 (ix2 p k')) k * x1 (ix2 o k)) + x2 (ix2 0 o) := by
  unfold k1_pay1
  dsimp only []
  -- the casts to the same shape are identities; the sum of the product and the bias row, read at (p, o)
  rw [shapeCast_self x0, shapeCast_self x1, shapeCast_self x2, addf_apply, broadcastTo_1b_ab_apply, matmul_rows_apply]
  refine congrArg (· + x2 (ix2 0 o)) (Finset.sum_congr rfl fun k _ => congrArg (· * x1 (ix2 o k)) ?_)
  -- entry (p, k) of the quantized block: the pointwise operations, then the scale column read at (p, 0)
  simp only [truncf_apply, mulf_apply, minimumf_apply, maximumf_apply, broadcast_apply, divf_apply, roundeven_apply]
  rw [broadcastTo_col_apply]
  simp only [maximumf_apply, broadcast_apply, divf_apply]
  rw [shapeCast_col_apply]
  -- the row maximum of absolute values is the row's absolute maximum
  have hm := rowmax_apply x0 reduces_S512x2048_S512 (.inl rfl) rfl p
  unfold quant scale
  exact congrArg (fun m => min aHi (max aLo (rnd (Ideal.div (x0 (ix2 p k)) (max (Ideal.div m aQmax) scaleFloor))))
    * max (Ideal.div m aQmax) scaleFloor) hm

end Cert.KernelIdeal.ActBody

end
-- ==== Proof.ActRegion.lean ====
/-
  What the second pallas_call leaves in its output array. Its sixteen grid points each take 512 whole rows of the
  flattened activations, with the quantized weights and the bias row resident, and write back 512 rows of the
  result; a result row reads its own activation row only, so point t's block is block t of ONE function of the
  three arrays (rowsLinear), and the sixteen blocks tile the 8192 rows.
-/
import proofs.«115590_j19370302505132_1_alg».proof.Proof.Gen.KernelIdeal.Frame
import proofs.«115590_j19370302505132_1_alg».proof.Proof.ActBody

set_option maxRecDepth 16384

noncomputable section

namespace Cert.KernelIdeal.ActRegion

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access. -/
theorem origin : (![0, 0] : Fin 2 → Nat) = fun _ => 0 := funext fun a => by fin_cases a <;> rfl

/-- The block index maps over the sixteen points: the activations and the result sit at row block t, column block 0;
    the weights and the bias row are whole, at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A loaded block whose row p is row (i 0) of the activations xa, with the whole quantized weights wq and the whole
    bias row b2 loaded beside it: the body's entry (p, o) is entry i of the layer's rows, when o is i's column. -/
theorem rows_entry (xa : SM.Idx → EReal) (wq : SW.Idx → EReal) (b2 : SB2.Idx → EReal)
    (x0 : Vec Ideal S512x2048 .f32) (x1 : Vec Ideal S2048x2048 .bf16) (x2 : Vec Ideal S1x2048 .f32)
    (i : SM.Idx) (p : Fin 512) (o : Fin 2048)
    (hrow : ∀ k : Fin 2048, x0 (ix2 p k) = xa (ix2 (i 0) k))
    (hw : ∀ o' k : Fin 2048, x1 (ix2 o' k) = wq (ix2 o' k))
    (hb : ∀ o' : Fin 2048, x2 (ix2 0 o') = b2 (ix2 0 o'))
    (ho : i 1 = o) :
    k1_pay1 (F := Ideal) x0 x1 x2 (ix2 p o) = rowsLinear xa wq b2 i := by
  refine (ActBody.qlinear_pay x0 x1 x2 p o).trans ?_
  unfold rowsLinear mRow
  rw [ho, hb o]
  congr 1
  refine Finset.sum_congr rfl fun k _ => ?_
  rw [hw o k]
  congr 2
  funext k'
  exact hrow k'

/-- What point t writes back is block t of the layer's rows. -/
theorem rows_flushed (c : Dev nD) (t : Fin cfg1.N) :
    (dat1 V c).flushed 3 t
      = ((cfg1.win 3).blk t).view.read (Elt Ideal) (rowsLinear (V c main_v0) (V c main_v2) (V c main_v1)) := by
  show (cfg1.win 3).cut (grid1.coords t) ((dat1 V c).after 3 t) = _
  rw [after1_3]
  unfold out1_3
  rw [View.canon_unit_zero origin]
  simp only [View.ld_unit_zero (S := S512x2048) origin, View.ld_unit_zero (S := S2048x2048) origin,
    View.ld_unit_zero (S := S1x2048) origin]
  obtain ⟨e00, e01, e10, e11, e20, e21, e30, e31⟩ := block_indices t
  funext j
  obtain ⟨p, o, rfl⟩ : ∃ (p : Fin 512) (o : Fin 2048), (j : S512x2048.Idx) = ix2 p o := ⟨j 0, j 1, eq_ix2 (n0 := 512) (n1 := 2048) j⟩
  show k1_pay1 (F := Ideal) (iblk1 V c 0 t) (iblk1 V c 1 t) (iblk1 V c 2 t) (ix2 p o)
    = rowsLinear (V c main_v0) (V c main_v2) (V c main_v1) (((cfg1.win 3).blk t).view.emb (ix2 p o))
  refine rows_entry (V c main_v0) (V c main_v2) (V c main_v1) (iblk1 V c 0 t) (iblk1 V c 1 t) (iblk1 V c 2 t)
    (((cfg1.win 3).blk t).view.emb (ix2 p o)) p o (fun k => ?_) (fun o' k => ?_) (fun o' => ?_) ?_
  · show V c main_v0 (((cfg1.win 0).blk t).view.emb (ix2 p k))
      = V c main_v0 (ix2 (((cfg1.win 3).blk t).view.emb (ix2 p o) 0) k)
    congr 1
    funext a
    apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  · show V c main_v2 (((cfg1.win 1).blk t).view.emb (ix2 o' k)) = V c main_v2 (ix2 o' k)
    congr 1
    funext a
    apply Fin.ext
    match a with
    | ⟨0, _⟩ => show win1_1.index t (0 : Fin 2) * 2048 + 1 * o'.val = o'.val; omega
    | ⟨1, _⟩ => show win1_1.index t (1 : Fin 2) * 2048 + 1 * k.val = k.val; omega
  · show V c main_v1 (((cfg1.win 2).blk t).view.emb (ix2 (0 : Fin 1) o')) = V c main_v1 (ix2 (0 : Fin 1) o')
    congr 1
    funext a
    apply Fin.ext
    match a with
    | ⟨0, _⟩ => show win1_2.index t (0 : Fin 2) * 1 + 1 * (0 : Fin 1).val = (0 : Fin 1).val; omega
    | ⟨1, _⟩ => show win1_2.index t (1 : Fin 2) * 2048 + 1 * o'.val = o'.val; omega
  · apply Fin.ext
    show win1_3.index t (1 : Fin 2) * 2048 + 1 * o.val = o.val
    omega

/-- An index of the result array is in point t's block iff each coordinate is in the block's range on its axis. -/
theorem mem_rows_blk (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- The sixteen blocks tile the 8192 rows: row r is in the block of point r / 512. -/
theorem rows_cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : grid1.N = 16 := N_1
  obtain ⟨t, ht⟩ : ∃ t : Fin cfg1.N, t.val = (i 0).val / 512 :=
    ⟨⟨(i 0).val / 512, by show (i 0).val / 512 < grid1.N; rw [hN]; omega⟩, rfl⟩
  obtain ⟨e00, e01, e10, e11, e20, e21, e30, e31⟩ := block_indices t
  refine ⟨t, flush1_3 t, ?_⟩
  rw [mem_rows_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the second region its output array holds the layer's rows of the arrays it was entered with. -/
theorem qlinear_final (c : Dev nD) :
    (dat1 V c).arrAt 3 cfg1.N = rowsLinear (V c main_v0) (V c main_v2) (V c main_v1) :=
  (dat1 V c).arrAt_eq_of_cover 3 (rowsLinear (V c main_v0) (V c main_v2) (V c main_v1)) (fun t _ => rows_flushed V c t) rows_cover

end Cert.KernelIdeal.ActRegion

end
-- ==== Proof.KernelValue.lean ====
/-
  The idealized kernel's result as one function of its arguments. Through the run's boundaries: the activations are
  flattened to 8192 rows and the bias laid out as one row; the first region quantizes the weights; the second
  computes the rows of the layer; the result is folded back to [4, 2048, 2048]. Flattening sends (b, s) to row
  b · 2048 + s, so entry (b, s, o) of the result is the layer at (b, s, o).
-/
import proofs.«115590_j19370302505132_1_alg».proof.Proof.Gen.KernelIdeal.Frame
import proofs.«115590_j19370302505132_1_alg».proof.Proof.WeightRegion
import proofs.«115590_j19370302505132_1_alg».proof.Proof.ActRegion
import Idealize.ShloMosaic.Lib.Pipeline.Value
import Idealize.ShloMosaic.Lib.ValueLayout
import Idealize.ShloMosaic.Lib.StableHlo.Run

set_option maxRecDepth 16384

noncomputable section

namespace Cert.KernelIdeal.KernelValue

open Cert.KernelIdeal Cert.KernelIdeal.Gen Cert.QuantLinear
open Idealize.ShloMosaic Idealize.ShloMosaic.TcCoe Idealize.ShloMosaic.ValueIdx Idealize.SL.Sem
open Idealize.ShloMosaic.Pipeline (Dat Cfg Window)
open Idealize.ShloMosaic.StableHlo

/-! ## Flattening and folding back, read at an index -/

/-- Token (b, s) is row b · 2048 + s of the flattened activations. -/
def tok (b : Fin 4) (s : Fin 2048) : Fin 8192 := ⟨b.val * 2048 + s.val, by have := b.isLt; have := s.isLt; omega⟩

/-- The flattened activations at (token (b, s), k) are the activations at (b, s, k). -/
theorem flatten_apply (x : SX.Idx → EReal) (h : SX.ShapeCasts SM) (b : Fin 4) (s k : Fin 2048) :
    shapeCast SM x h (ix2 (tok b s) k) = x (ix3 b s k) :=
  shapeCast_apply x h _ _ (by
    rw [Shape.rowMajor_val_three, Shape.rowMajor_val_two]
    show (b.val * 2048 + s.val) * 2048 + k.val = (b.val * 2048 + s.val) * 2048 + k.val
    rfl)

/-- Folding the rows back: entry (b, s, o) reads row token (b, s) at column o. -/
theorem unflatten_apply (y : SM.Idx → EReal) (h : SM.ShapeCasts SX) (b : Fin 4) (s o : Fin 2048) :
    shapeCast SX y h (ix3 b s o) = y (ix2 (tok b s) o) :=
  shapeCast_apply y h _ _ (by
    rw [Shape.rowMajor_val_three, Shape.rowMajor_val_two]
    show (b.val * 2048 + s.val) * 2048 + o.val = (b.val * 2048 + s.val) * 2048 + o.val
    rfl)

/-- The layer's rows on the flattened activations, the quantized weights and the bias row, folded back, are the layer. -/
theorem unflatten_rowsLinear (x : SX.Idx → EReal) (w : SW.Idx → EReal) (b : SB.Idx → EReal)
    (h1 : SX.ShapeCasts SM) (h2 : SB.ShapeCasts SB2) (h3 : SM.ShapeCasts SX) :
    shapeCast SX (rowsLinear (shapeCast SM x h1) (wQuant w) (shapeCast SB2 b h2)) h3 = linear x w b := by
  funext i
  obtain ⟨bb, s, o, rfl⟩ : ∃ (bb : Fin 4) (s o : Fin 2048), i = ix3 bb s o := ⟨i 0, i 1, i 2, eq_ix3 i⟩
  rw [unflatten_apply]
  unfold rowsLinear linear
  congr 1
  · refine Finset.sum_congr rfl fun k _ => ?_
    congr 1
    show quant aLo aHi aQmax (mRow (shapeCast SM x h1) (tok bb s)) k = quant aLo aHi aQmax (xRow x bb s) k
    congr 1
    funext k'
    exact flatten_apply x h1 bb s k'
  · exact shapeCast_a_1a_apply b h2 0 o

/-! ## The run's boundaries -/

variable (m : (ℓ : Loc nD τ sig) → Buf (Elt Ideal) ℓ) (ρ : Dev nD → PrngReg)

/-- The last boundary's contents at the result array: the layer of the launch arguments. -/
theorem result_eq (c : Dev nD) :
    W4 m ρ c (Proc.devRef .tc main_v4)
      = linear (m ((c.tc : Thread nD τ).loc main_arg0)) (m ((c.tc : Thread nD τ).loc main_arg1)) (m ((c.tc : Thread nD τ).loc main_arg2)) := by
  -- the result is the second region's output array, folded back
  have e4 : W4 m ρ c (Proc.devRef .tc main_v4) = shapeCast S4x2048x2048 (W3 m ρ c (Proc.devRef .tc main_v3)) shapeCasts_S8192x2048_S4x2048x2048 := by
    show StableHlo.after hostOps2 (W3 m ρ c) (Proc.devRef .tc main_v4) = _
    after_results
    rfl
  have e3 : W3 m ρ c (Proc.devRef .tc main_v3) = (dat1 (V2 m ρ) c).arrAt 3 cfg1.N := W3_arr m ρ c 3
  -- the second region is entered with the flattened activations, the bias row, and the first region's output
  have ex : V2 m ρ c main_v0 = shapeCast S8192x2048 (m ((c.tc : Thread nD τ).loc main_arg0)) shapeCasts_S4x2048x2048_S8192x2048 := by
    show W2 m ρ c (Proc.devRef .tc main_v0) = _
    rw [W2_of_ne m ρ c main_v0 (by decide)]
    show StableHlo.after hostOps0 (W0 m ρ c) (Proc.devRef .tc main_v0) = _
    after_results
    rfl
  have eb : V2 m ρ c main_v1 = shapeCast S1x2048 (m ((c.tc : Thread nD τ).loc main_arg2)) shapeCasts_S2048_S1x2048 := by
    show W2 m ρ c (Proc.devRef .tc main_v1) = _
    rw [W2_of_ne m ρ c main_v1 (by decide)]
    show StableHlo.after hostOps0 (W0 m ρ c) (Proc.devRef .tc main_v1) = _
    after_results
    rfl
  -- the first region is entered with the weights as launched
  have ea : V1 m ρ c main_arg1 = m ((c.tc : Thread nD τ).loc main_arg1) := by
    show StableHlo.after hostOps0 (W0 m ρ c) (Proc.devRef .tc main_arg1) = _
    after_results
  have ew : V2 m ρ c main_v2 = wQuant (m ((c.tc : Thread nD τ).loc main_arg1)) := by
    have h := (W2_arr m ρ c 1).trans (WeightRegion.wquant_final (V1 m ρ) c)
    rw [ea] at h
    exact h
  rw [e4, e3, ActRegion.qlinear_final, ex, eb, ew]
  exact unflatten_rowsLinear _ _ _ _ _ _

end Cert.KernelIdeal.KernelValue

end
-- ==== Proof.RefValue.lean ====
/-
  The reference's result as one function of its arguments: read one operation at a time, jnp's fake quantizers are
  the row quantizer with the rounding spelt straight through (v + (round v - v)), the einsum is the sum over the
  contracted axis, and the bias is broadcast along the last axis: the layer linearSte.
-/
import proofs.«115590_j19370302505132_1_alg».proof.Proof.Gen.ReferenceIdeal.Read
import proofs.«115590_j19370302505132_1_alg».proof.Proof.Quant
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Read Cert.QuantLinear
open Idealize.ShloMosaic Idealize.ShloMosaic.TcCoe Idealize.ShloMosaic.ValueIdx Idealize.SL.Sem

/-- The row maximum of |w| over the last axis is the row's absolute maximum. -/
private theorem v1_eq (x1 : FVec Ideal S2048x2048 .f32) (o : Fin 2048) :
    val_main_v1 (F := Ideal) x1 (ix1 o) = rowAbsMax (wRow x1 o) := by
  unfold val_main_v1
  have h : Shape.Reduces S2048x2048 [1] S2048 := by decide
  rw [Host.reduce_eq_fold_single (FloatOps.maximumf (F := Ideal) (φ := .f32)) _ _ _ h]
  have hf : (val_main_v0 (F := Ideal) x1 ∘ h.lift (ix1 o))
      = (fun k : Fin 2048 => max (wRow x1 o k) (-(wRow x1 o k))) := by
    funext k
    have e : h.lift (ix1 o) k = ix2 o k :=
      funext fun a => Fin.ext (by match a with | ⟨0, _⟩ => rfl | ⟨1, _⟩ => rfl)
    show FloatOps.hostAbsf (x1 (h.lift (ix1 o) k)) = _
    rw [e]; rfl
  rw [hf]; rfl

/-- The weight row's scale. -/
private theorem v6_eq (x1 : FVec Ideal S2048x2048 .f32) (o : Fin 2048) :
    val_main_v6 (F := Ideal) x1 (ix2 o (0 : Fin 1)) = scale wQmax (wRow x1 o) := by
  have e : idx_main_v2 (ix2 o (0 : Fin 1)) = ix1 o :=
    funext fun a => Fin.ext (by match a with | ⟨0, _⟩ => rfl)
  rw [val_main_v6_apply, val_main_v4_apply, val_main_v2_apply, val_main_v3_apply, val_main_v5_apply,
    val_main_cst_0_apply, val_main_cst_1_apply, e, v1_eq]
  rfl

/-- The quantized weights, rounding straight through. -/
private theorem v14_eq (x1 : FVec Ideal S2048x2048 .f32) (o k : Fin 2048) :
    val_main_v14 (F := Ideal) x1 (ix2 o k) = quantSte wLo wHi wQmax (wRow x1 o) k := by
  have e7 : idx_main_v7 (ix2 o k) = ix2 o (0 : Fin 1) :=
    funext fun a => Fin.ext (by match a with | ⟨0, _⟩ => rfl | ⟨1, _⟩ => rfl)
  have e13 : idx_main_v13 (ix2 o k) = ix2 o (0 : Fin 1) :=
    funext fun a => Fin.ext (by match a with | ⟨0, _⟩ => rfl | ⟨1, _⟩ => rfl)
  have h8 : val_main_v8 (F := Ideal) x1 (ix2 o k) = Ideal.div (wRow x1 o k) (scale wQmax (wRow x1 o)) := by
    rw [val_main_v8_apply, val_main_v7_apply, e7, v6_eq]; rfl
  rw [val_main_v14_apply, val_main_v12_apply, val_main_v13_apply, e13, v6_eq, val_main_call1_v4_apply,
    val_main_call1_v3_apply, val_main_cst_3_apply, val_main_call1_v2_apply, val_main_call1_v1_apply,
    val_main_call1_v0_apply, val_main_cst_2_apply, val_main_v11_apply, val_main_v10_apply, val_main_v9_apply, h8]
  rfl

/-- The row maximum of |x| over the last axis is the row's absolute maximum. -/
private theorem v16_eq (x0 : FVec Ideal S4x2048x2048 .f32) (b : Fin 4) (s : Fin 2048) :
    val_main_v16 (F := Ideal) x0 (ix2 b s) = rowAbsMax (xRow x0 b s) := by
  unfold val_main_v16
  have h : Shape.Reduces S4x2048x2048 [2] S4x2048 := by decide
  rw [Host.reduce_eq_fold_single (FloatOps.maximumf (F := Ideal) (φ := .f32)) _ _ _ h]
  have hf : (val_main_v15 (F := Ideal) x0 ∘ h.lift (ix2 b s))
      = (fun k : Fin 2048 => max (xRow x0 b s k) (-(xRow x0 b s k))) := by
    funext k
    have e : h.lift (ix2 b s) k = ix3 b s k :=
      funext fun a => Fin.ext (by match a with | ⟨0, _⟩ => rfl | ⟨1, _⟩ => rfl | ⟨2, _⟩ => rfl)
    show FloatOps.hostAbsf (x0 (h.lift (ix2 b s) k)) = _
    rw [e]; rfl
  rw [hf]; rfl

/-- The activation row's scale. -/
private theorem v21_eq (x0 : FVec Ideal S4x2048x2048 .f32) (b : Fin 4) (s : Fin 2048) :
    val_main_v21 (F := Ideal) x0 (ix3 b s (0 : Fin 1)) = scale aQmax (xRow x0 b s) := by
  have e : idx_main_v17 (ix3 b s (0 : Fin 1)) = ix2 b s :=
    funext fun a => Fin.ext (by match a with | ⟨0, _⟩ => rfl | ⟨1, _⟩ => rfl)
  rw [val_main_v21_apply, val_main_v19_apply, val_main_v17_apply, val_main_v18_apply, val_main_v20_apply,
    val_main_cst_5_apply, val_main_cst_6_apply, e, v16_eq]
  rfl

/-- The quantized activations, rounding straight through. -/
private theorem v29_eq (x0 : FVec Ideal S4x2048x2048 .f32) (b : Fin 4) (s k : Fin 2048) :
    val_main_v29 (F := Ideal) x0 (ix3 b s k) = quantSte aLo aHi aQmax (xRow x0 b s) k := by
  have e22 : idx_main_v22 (ix3 b s k) = ix3 b s (0 : Fin 1) :=
    funext fun a => Fin.ext (by match a with | ⟨0, _⟩ => rfl | ⟨1, _⟩ => rfl | ⟨2, _⟩ => rfl)
  have e28 : idx_main_v28 (ix3 b s k) = ix3 b s (0 : Fin 1) :=
    funext fun a => Fin.ext (by match a with | ⟨0, _⟩ => rfl | ⟨1, _⟩ => rfl | ⟨2, _⟩ => rfl)
  have h23 : val_main_v23 (F := Ideal) x0 (ix3 b s k) = Ideal.div (xRow x0 b s k) (scale aQmax (xRow x0 b s)) := by
    rw [val_main_v23_apply, val_main_v22_apply, e22, v21_eq]; rfl
  rw [val_main_v29_apply, val_main_v27_apply, val_main_v28_apply, e28, v21_eq, val_main_call3_v4_apply,
    val_main_call3_v3_apply, val_main_cst_8_apply, val_main_call3_v2_apply, val_main_call3_v1_apply,
    val_main_call3_v0_apply, val_main_cst_7_apply, val_main_v26_apply, val_main_v25_apply, val_main_v24_apply, h23]
  rfl

/-- The reference's last stage is the layer, rounding straight through. -/
theorem result_eq (x0 : FVec Ideal S4x2048x2048 .f32) (x1 : FVec Ideal S2048x2048 .f32) (x2 : FVec Ideal S2048 .f32) :
    val_main_v33 (F := Ideal) x0 x1 x2 = linearSte x0 x1 x2 := by
  funext i
  have eb : idx_main_v31 (idx_main_v32 i) = ix1 (n := 2048) (i 2) :=
    funext fun a => Fin.ext (by match a with | ⟨0, _⟩ => rfl)
  rw [val_main_v33_apply, val_main_v30_apply, val_main_v32_apply, val_main_v31_apply, eb]
  unfold linearSte
  show (∑ k : Fin 2048, _) + _ = (∑ k : Fin 2048, _) + _
  refine congrArg₂ (· + ·) (Finset.sum_congr rfl fun k _ => ?_) rfl
  have el : lidx_main_v30 i k = ix3 (n0 := 4) (n1 := 2048) (n2 := 2048) (i 0) (i 1) k :=
    funext fun a => Fin.ext (by match a with | ⟨0, _⟩ => rfl | ⟨1, _⟩ => rfl | ⟨2, _⟩ => rfl)
  have er : ridx_main_v30 i k = ix2 (n0 := 2048) (n1 := 2048) (i 2) k :=
    funext fun a => Fin.ext (by match a with | ⟨0, _⟩ => rfl | ⟨1, _⟩ => rfl)
  rw [el, er]
  exact congrArg₂ (· * ·) (v29_eq x0 (i 0) (i 1) k) (v14_eq x1 (i 2) k)

end Cert.ReferenceIdeal.RefValue

end
-- ==== Proof.Finite.lean ====
/-
  From the precondition to real numbers. The printed predicate is the conjunction, over the three inputs, of
  "every |entry| is below +∞"; where it is all ones every entry of the activations and of the weights is a real.
-/
import proofs.«115590_j19370302505132_1_alg».proof.Pre_finite_inputs
import Idealize.ShloMosaic.PureOps.Ideal
import Idealize.ShloMosaic.PureOps.Ideal.Laws
import Idealize.ShloMosaic.Lib.ReduceAll
import Idealize.ShloMosaic.Lib.ValueIdx

set_option maxRecDepth 16384

noncomputable section

namespace Cert.Pre_finite_inputs.Finite

open Cert.Pre_finite_inputs Idealize.ShloMosaic Idealize.ShloMosaic.ValueIdx

variable [Cert.Pre_finite_inputs.Facts]

/-- The pattern with all exponent bits set, sign and fraction clear, denotes +∞. -/
private theorem inf_eq_top : Ideal.ofBits .f32 0x7F800000#32 = (⊤ : EReal) := by
  simp [Ideal.ofBits, Ideal.ieee]

/-- An extended real whose absolute value max a (-a) is strictly below +∞ is a real: at ⊥ and at ⊤ the
    absolute value is ⊤. -/
private theorem real_of_abs_lt (a : EReal)
    (h : Ideal.cmp .olt (max a (-a)) (Ideal.ofBits .f32 0x7F800000#32) = 1#1) : ∃ r : ℝ, a = (r : EReal) := by
  rw [inf_eq_top] at h
  induction a using EReal.rec with
  | bot => simp [Ideal.cmp] at h
  | coe r => exact ⟨r, rfl⟩
  | top => simp [Ideal.cmp] at h

/-- The same over a whole array of any shape: where |v| compares below an array that is +∞ everywhere,
    at every index, every entry of v is a real. -/
private theorem real_of_cmp {s : Shape} (v c : FVec Ideal s .f32)
    (hc : ∀ i, c i = Ideal.ofBits .f32 0x7F800000#32)
    (h : ∀ i, cmpf .olt (Host.absf v) c i = 1#1) : ∀ i, ∃ r : ℝ, v i = (r : EReal) := by
  intro i
  have hi := h i
  rw [cmpf_apply, hc i] at hi
  exact real_of_abs_lt (v i) hi

/-- The rank-0 shape has one index. -/
private local instance : Subsingleton S_.Idx := ⟨fun a b => funext fun d => d.elim0⟩

/-- Where the precondition holds the activations and the weights are real at every index. -/
theorem real_of_pre (x : FVec Ideal S4x2048x2048 .f32) (w : FVec Ideal S2048x2048 .f32) (b : FVec Ideal S2048 .f32)
    (h : Cert.Pre_finite_inputs.fn (F := Ideal) x w b = fun _ => 1#1) :
    (∀ i, ∃ r : ℝ, x i = (r : EReal)) ∧ (∀ i, ∃ r : ℝ, w i = (r : EReal)) := by
  have h0 := congrFun h ValueIdx.ix0
  dsimp only [fn] at h0
  obtain ⟨h12, _⟩ := IntOp.andi_eq_one.1 h0
  obtain ⟨h1, h2⟩ := IntOp.andi_eq_one.1 h12
  refine ⟨real_of_cmp x _ (fun _ => rfl) (Host.reduce_andi_all _ _ _ _ _ h1), ?_⟩
  exact real_of_cmp w _ (fun _ => rfl) (Host.reduce_andi_all _ _ _ _ _ h2)

end Cert.Pre_finite_inputs.Finite

end
-- ==== Proof.lean ====
/-
  A W4A8 fake-quantized linear layer: weights quantized per output row to 4 bits, activations per token to 8 bits,
  out = x_q · w_qᵀ + bias. The kernel does it in two pallas_calls (quantize the weights once; then, 512 tokens at a
  time, quantize the activations, contract with the resident quantized weights, add the bias); the reference is the
  same arithmetic in jnp, with the rounding written straight through, v + (round v - v).

  On the extended reals both programs compute ONE function, Cert.QuantLinear.linear:
      out[b, s, o] = Σ_k quant8(x[b, s, ·]) k · quant4(w[o, ·]) k + bias[o].
  The kernel's side: each region's output array is one function of its input arrays (a row's quantization and a
  result row read one row each, so the grid's blocks are restrictions of one whole-array function and tile it), and
  the host reshapes before and after send (b, s) to row b · 2048 + s and back. The reference's side: its operations
  read one at a time give the same sums with the straight-through rounding, and on REAL inputs v + (round v - v) is
  round v, because v = entry / scale is real: the scale is at least its positive floor. That is where the
  precondition (every input finite) is used. The format change to bf16 is the identity on the extended reals, and no
  operation was rewritten by the idealization, so there is nothing to preserve beyond the programs' own text.
-/
import proofs.«115590_j19370302505132_1_alg».proof.Defs
import proofs.«115590_j19370302505132_1_alg».proof.Proof.Gen.Kernel
import proofs.«115590_j19370302505132_1_alg».proof.Proof.Gen.Kernel.Frame
import proofs.«115590_j19370302505132_1_alg».proof.Proof.Gen.KernelIdeal
import proofs.«115590_j19370302505132_1_alg».proof.Proof.Gen.KernelIdeal.Frame
import proofs.«115590_j19370302505132_1_alg».proof.Proof.Gen.ReferenceIdeal
import proofs.«115590_j19370302505132_1_alg».proof.Proof.Gen.ReferenceIdeal.Run
import proofs.«115590_j19370302505132_1_alg».proof.Proof.Gen.ReferenceIdeal.Read
import proofs.«115590_j19370302505132_1_alg».proof.Proof.Gen.Pre_finite_inputs
import proofs.«115590_j19370302505132_1_alg».proof.Proof.Quant
import proofs.«115590_j19370302505132_1_alg».proof.Proof.KernelRun
import proofs.«115590_j19370302505132_1_alg».proof.Proof.KernelValue
import proofs.«115590_j19370302505132_1_alg».proof.Proof.RefValue
import proofs.«115590_j19370302505132_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame of its two regions. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer of the arguments: the kernel by its regions' values through the
    reshapes, the reference by its stages and, the inputs being real, the cancellation in the straight-through
    rounding. -/
theorem algebraic : Cert.algebraic_KernelIdeal_ReferenceIdeal := by
  intro m ρ m' ρ' hpre hagree
  refine ⟨fun c => Cert.QuantLinear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KernelValue.result_eq m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    obtain ⟨hx, hw⟩ := Cert.Pre_finite_inputs.Finite.real_of_pre _ _ _ (hpre c)
    rw [(h c).1, Cert.ReferenceIdeal.Read.val_main_v33_eq, Cert.ReferenceIdeal.RefValue.result_eq,
      (hagree c).1, (hagree c).2.1, (hagree c).2.2]
    exact Cert.QuantLinear.linearSte_eq_linear _ _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
